-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1024 : Shape := ⟨1, ![1024]⟩
abbrev S100000x64 : Shape := ⟨2, ![100000, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S1024x64 .f32) (main_arg1 : IVec S1024 32) (main_arg2 : FVec F S100000x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S1024x64 : Shape := ⟨2, ![1024, 64]⟩
abbrev S1024 : Shape := ⟨1, ![1024]⟩
abbrev S100000x64 : Shape := ⟨2, ![100000, 64]⟩
abbrev S8x128 : Shape := ⟨2, ![8, 128]⟩
abbrev S1024x100000 : Shape := ⟨2, ![1024, 100000]⟩
abbrev S2048x64 : Shape := ⟨2, ![2048, 64]⟩
abbrev S1024x2048 : Shape := ⟨2, ![1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S100000x64, .f32⟩
  | .hbm, ⟨3, _⟩ => ⟨S8x128, .i32⟩
  | .hbm, ⟨4, _⟩ => ⟨S1024x100000, .f32⟩
  | .hbm, ⟨5, _⟩ => ⟨S8x128, .i32⟩
  | .hbm, ⟨6, _⟩ => ⟨S1024, .i32⟩
  | .local _ .vmem, ⟨0, _⟩ => ⟨S1024x64, .f32⟩
  | .local _ .vmem, ⟨1, _⟩ => ⟨S8x128, .i32⟩
  | .local _ .vmem, ⟨2, _⟩ => ⟨S2048x64, .f32⟩
  | .local _ .vmem, ⟨3, _⟩ => ⟨S2048x64, .f32⟩
  | .local _ .vmem, ⟨4, _⟩ => ⟨S1024x2048, .f32⟩
  | .local _ .vmem, ⟨5, _⟩ => ⟨S1024x2048, .f32⟩
  | .local _ .vmem, ⟨6, _⟩ => ⟨S8x128, .i32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0_0 : Ref sig .tc := ⟨.hbm, 4, rfl⟩
abbrev main_call0_v1_1 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S1024_S8x128 : S1024.ShapeCasts S8x128
  shapeCasts_S8x128_S1024 : S8x128.ShapeCasts S1024
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  inb_S1024x2048_S1024x2048_0_0 : ∀ a, (![0, 0] : Fin 2 → Nat) a + S1024x2048.size a ≤ S1024x2048.size a
  h_S1024x2048 : 0 < S1024x2048.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S1024x64.size a
  hwx0_0 : ∀ i : grid0.Coords, EltTy.bits .f32 = 32 ∨ (Rect.block (s := S1024x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .i32 = 32 ∨ (Rect.block (s := S8x128) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x64.size a < S100000x64.size a
  hwx0_2 : ∀ i : grid0.Coords, EltTy.bits .f32 = 32 ∨ (Rect.unit (s := S100000x64) (fun a => cc0_transform_2 i a * S2048x64.size a) (fun a => (Pipeline.Clip.of (cc0_transform_2 i a) (S2048x64.size a) (S100000x64.size a)).extent (S2048x64.size a)) fun a => Pipeline.Clip.inb (Pipeline.Clip.ok_of (hstart0_2 i a))).WholeWords (EltTy.packing .f32)
  hwxs0_2 : ∀ i : grid0.Coords, EltTy.bits .f32 = 32 ∨ (Rect.unit (s := S2048x64) (fun _ => 0) (fun a => (Pipeline.Clip.of (cc0_transform_2 i a) (S2048x64.size a) (S100000x64.size a)).extent (S2048x64.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x2048.size a < S1024x100000.size a
  hwx0_3 : ∀ i : grid0.Coords, EltTy.bits .f32 = 32 ∨ (Rect.unit (s := S1024x100000) (fun a => cc0_transform_3 i a * S1024x2048.size a) (fun a => (Pipeline.Clip.of (cc0_transform_3 i a) (S1024x2048.size a) (S1024x100000.size a)).extent (S1024x2048.size a)) fun a => Pipeline.Clip.inb (Pipeline.Clip.ok_of (hstart0_3 i a))).WholeWords (EltTy.packing .f32)
  hwxs0_3 : ∀ i : grid0.Coords, EltTy.bits .f32 = 32 ∨ (Rect.unit (s := S1024x2048) (fun _ => 0) (fun a => (Pipeline.Clip.of (cc0_transform_3 i a) (S1024x2048.size a) (S1024x100000.size a)).extent (S1024x2048.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .i32 = 32 ∨ (Rect.block (s := S8x128) S8x128.size (cc0_transform_4 i) (hinb0_4 i)).WholeWords (EltTy.packing .i32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg0) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S2048x64.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0_0) S1024x2048.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_call0_v1_1) S8x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x64 : Shape := ⟨2, ![1024, 64]⟩
abbrev S1024 : Shape := ⟨1, ![1024]⟩
abbrev S100000x64 : Shape := ⟨2, ![100000, 64]⟩
abbrev S_ : Shape := ⟨0, ![]⟩
abbrev S64x100000 : Shape := ⟨2, ![64, 100000]⟩
abbrev S1024x100000 : Shape := ⟨2, ![1024, 100000]⟩

abbrev nBuf : Space → Nat
  | .hbm => 16
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S100000x64, .f32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S1024, .i1⟩
  | .hbm, ⟨10, _⟩ => ⟨S_, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S64x100000, .f32⟩
  | .hbm, ⟨15, _⟩ => ⟨S1024x100000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  transposes_S100000x64_S64x100000_1_0 : S100000x64.Transposes [1, 0] S64x100000
  dot_S1024x64_S64x100000_S1024x100000_1_0_0_1_n_n_wf : DotDims.WF S1024x64 S64x100000 S1024x100000 [1] [0] [0] [1] [] []

variable [Facts₀]

def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.Spec.lean ====
import Idealize.ShloMosaic.PureOps.Ideal
import Idealize.ShloMosaic.Lib.ValueIdx

/-!
The two results as functions of the argument arrays, over the extended reals and the 32-bit words.

* `score b n = ∑ k, feats b k * table n k`: every feature row against every table row
  (the matching scores `feats · tableᵀ`).
* `labels j`: the identifier `pid j` when it lies in `[0, 100000)` as a signed word, else `-1`.
-/

noncomputable section

namespace Cert.Spec

open Idealize.ShloMosaic

abbrev Sfeat : Shape := ⟨2, ![1024, 64]⟩
abbrev Stab : Shape := ⟨2, ![100000, 64]⟩
abbrev Sscore : Shape := ⟨2, ![1024, 100000]⟩
abbrev Sid : Shape := ⟨1, ![1024]⟩

/-- Feature row `i 0`, feature `k`. -/
abbrev featRow (i : Sscore.Idx) (k : Fin 64) : Sfeat.Idx := fun a => match a with
  | ⟨0, _⟩ => ⟨(i 0).val, (i 0).isLt⟩
  | ⟨1, _⟩ => ⟨k.val, k.isLt⟩

/-- Table row `i 1`, feature `k`. -/
abbrev tabRow (i : Sscore.Idx) (k : Fin 64) : Stab.Idx := fun a => match a with
  | ⟨0, _⟩ => ⟨(i 1).val, (i 1).isLt⟩
  | ⟨1, _⟩ => ⟨k.val, k.isLt⟩

/-- The matching scores: entry `(b, n)` is the inner product of feature row `b` with table row `n`. -/
def score (feats : FVec Ideal Sfeat .f32) (table : FVec Ideal Stab .f32) : FVec Ideal Sscore .f32 :=
  fun i => ∑ k : Fin 64, feats (featRow i k) * table (tabRow i k)

/-- One sanitised identifier: `-1` when the word is negative or at least `100000` (signed), else the word. -/
def label (p : BitVec 32) : BitVec 32 :=
  Scalar.select (IntOp.ori (IntOp.cmpi .slt p 0#32) (IntOp.cmpi .sge p 100000#32)) 4294967295#32 p

/-- The sanitised identifiers, entry by entry. -/
def labels (pid : IVec Sid 32) : IVec Sid 32 := fun j => label (pid j)

end Cert.Spec

end
-- ==== Proof.RefSide.lean ====
import proofs.«178611_g46832323396030_cont_8to1c4_234_2_alg».proof.Proof.Gen.ReferenceIdeal.Run
import proofs.«178611_g46832323396030_cont_8to1c4_234_2_alg».proof.Proof.Gen.ReferenceIdeal.Read
import proofs.«178611_g46832323396030_cont_8to1c4_234_2_alg».proof.Proof.Spec

/-!
The reference program computes the specification.

* The score: the reference transposes the table and contracts the feature axis, so its entry
  `(b, n)` is `∑ k, feats (b, k) * tableᵀ (k, n)`; reading the transpose at `(k, n)` is reading the
  table at `(n, k)`, which is the specification's inner product of feature row `b` with table row `n`.
* The labels: the reference compares each identifier with the broadcast constants `0` and `100000`,
  takes the disjunction, and selects the broadcast constant `-1` or the identifier; entry by entry
  this is the specification's `label`.
-/

noncomputable section

namespace Cert.RefSide

open Cert.ReferenceIdeal Cert.ReferenceIdeal.Read Idealize.ShloMosaic

/-- The left operand of the contraction is read at feature row `i 0`, feature `k`. -/
theorem lidx_eq (i : S1024x100000.Idx) (k : Fin 64) :
    lidx_main_v7 i k = Cert.Spec.featRow i k :=
  funext fun a => Fin.ext (by match a with | ⟨0, _⟩ => rfl | ⟨1, _⟩ => rfl)

/-- The transposed table at `(k, i 1)` is the table at row `i 1`, feature `k`. -/
theorem ridx_eq (i : S1024x100000.Idx) (k : Fin 64) :
    idx_main_v6 (ridx_main_v7 i k) = Cert.Spec.tabRow i k :=
  funext fun a => Fin.ext (by match a with | ⟨0, _⟩ => rfl | ⟨1, _⟩ => rfl)

theorem score_eq (x0 : (⟨Cert.ReferenceIdeal.S1024x64, .f32⟩ : BufTy).Contents (Elt Ideal)) (x2 : (⟨Cert.ReferenceIdeal.S100000x64, .f32⟩ : BufTy).Contents (Elt Ideal)) :
    Cert.ReferenceIdeal.Read.val_main_v7 (F := Ideal) x0 x2 = Cert.Spec.score x0 x2 := by
  funext i
  rw [val_main_v7_apply]
  unfold Cert.Spec.score
  refine Finset.sum_congr rfl fun k _ => ?_
  rw [val_main_v6_apply, lidx_eq, ridx_eq]

theorem labels_eq (x1 : (⟨Cert.ReferenceIdeal.S1024, .i32⟩ : BufTy).Contents (Elt Ideal)) :
    Cert.ReferenceIdeal.Read.val_main_v5 (F := Ideal) x1 = Cert.Spec.labels x1 := by
  funext i
  rw [val_main_v5_apply, val_main_v4_apply, val_main_v1_apply, val_main_v3_apply,
    val_main_v0_apply, val_main_v2_apply, val_main_call0_v1_apply, val_main_call0_v0_apply,
    val_main_c_apply, val_main_c_0_apply, val_main_c_1_apply]
  unfold Cert.Spec.labels Cert.Spec.label
  rfl

end Cert.RefSide

end
-- ==== Proof.KTriple.lean ====
import proofs.«178611_g46832323396030_cont_8to1c4_234_2_alg».proof.Proof.Gen.Kernel.Frame
import proofs.«178611_g46832323396030_cont_8to1c4_234_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and store is of a whole staging buffer -/

abbrev rF : Rect S1024x64 := Rect.unit (s := S1024x64) ![0, 0] S1024x64.size inb_S1024x64_S1024x64_0_0
abbrev rW : Rect S2048x64 := Rect.unit (s := S2048x64) ![0, 0] S2048x64.size inb_S2048x64_S2048x64_0_0
abbrev rS : Rect S1024x2048 := Rect.unit (s := S1024x2048) ![0, 0] S1024x2048.size inb_S1024x2048_S1024x2048_0_0
abbrev rL : Rect S8x128 := Rect.unit (s := S8x128) ![0, 0] S8x128.size inb_S8x128_S8x128_0_0

/-- The score slab the body leaves: the product of the feature block with the table slab, stored whole. -/
def outS (x0 : Vec F S1024x64 .f32) (x2 : Vec F S2048x64 .f32) : Vec F S1024x2048 .f32 :=
  View.canon [⟨rS, k0_pay1 (View.ld x0 rF) (View.ld x2 rW)⟩]

/-- The label block the body leaves: the sanitised identifiers, stored whole. -/
def outL (x1 : Vec F S8x128 .i32) : Vec F S8x128 .i32 :=
  View.canon [⟨rL, k0_pay2 (View.ld x1 rL)⟩]

theorem coverS (p0 : Vec F S1024x2048 .f32) (y : S1024x2048.Idx) :
    ∃ pc ∈ ([⟨rS, p0⟩] : List (View.Piece (Elt F) S1024x2048 .f32)), y ∈ pc.1.set :=
  View.cover_of_tiled [⟨rS, p0⟩] S1024x2048.size (by rfl) y

theorem coverL (p0 : Vec F S8x128 .i32) (y : S8x128.Idx) :
    ∃ pc ∈ ([⟨rL, p0⟩] : List (View.Piece (Elt F) S8x128 .i32)), y ∈ pc.1.set :=
  View.cover_of_tiled [⟨rL, p0⟩] S8x128.size (by rfl) y

set_option maxHeartbeats 1000000 in
/-- The body on whole staging buffers: the three inputs' at contents `x0`, `x1`, `x2` and the two outputs' at anything
    run to the continuation with the inputs' unchanged, the score buffer at the product and the label buffer at the
    sanitised identifiers. -/
theorem sound_kernel (c : Dev nD) (E : Set ℕ) (i : grid0.Coords)
    (arg1 : Memref sig .tc .vmem S1024x64 .f32) (harg1 : arg1.IsWhole) (arg2 : Memref sig .tc .vmem S8x128 .i32) (harg2 : arg2.IsWhole)
    (arg3 : Memref sig .tc .vmem S2048x64 .f32) (harg3 : arg3.IsWhole) (arg4 : Memref sig .tc .vmem S1024x2048 .f32) (harg4 : arg4.IsWhole)
    (arg5 : Memref sig .tc .vmem S8x128 .i32) (harg5 : arg5.IsWhole)
    (x0 : Vec F S1024x64 .f32) (x1 : Vec F S8x128 .i32) (x2 : Vec F S2048x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outS x0 x2) ∗ owns (c : Thread nD τ) arg5 fullShare (outL x1)) -∗ K ⟨⟩))
      ⊢ wp frame (wpE (defs₀ (F := F)) Variants.none c none) E (cc0__matmul_kernel i arg1 harg1 arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverS _)
  · iexists _; isplitr
    swap; · iexact H4
    ipureintro
    exact View.read_writes_eq_canon _ _ _ (coverL _)

end Cert.Kernel.Body

end
-- ==== Proof.KFrame.lean ====
import proofs.«178611_g46832323396030_cont_8to1c4_234_2_alg».proof.Proof.KTriple
import proofs.«178611_g46832323396030_cont_8to1c4_234_2_alg».proof.Proof.Gen.Kernel.Frame
import proofs.«178611_g46832323396030_cont_8to1c4_234_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Data

variable (m : (ℓ : Loc nD τ sig) → Buf (Elt F) ℓ) (ρ : Dev nD → PrngReg)

/-! ## The proof data

The claim here is only that the three argument arrays end as they began. The score array is an output whose last
column block overhangs the array, and the product that fills its staging buffer is taken of the WHOLE slab buffer,
whose rows past the table's end hold words nothing names. So what the body leaves in the score buffer is a function
of unnamed contents, and the proof data says nothing of it: the score window is forgotten. -/

/-- The one window the frame says nothing of: the score (window 3). -/
def fgt : Fin 5 → Bool := fun w => w.val == 3

/-- The table slab at point `t` as the proof data names it: the slab's rows inside the table, and the zero word on the
    staging rows past the table's end. Only its rows inside the table are ever read off it (the window is clipped). -/
def wslab (c : Dev nD) (t : Fin cfg0.N) : S2048x64.Idx → Elt F .f32 :=
  win0_2.fill (grid0.coords t) (fun _ => Scalar.ofBits .f32 0#32) (iblk m c 2 t)

/-- The arrays as the region finds them; after the body at point `t` the feature buffer holds the features, the
    identifier buffer the identifiers, the slab buffer the slab, the label buffer the sanitised identifiers; the score
    buffer is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wslab m c t
    | ⟨3, h⟩ => Pipeline.Dat.unnamed (cfg := cfg0) ⟨3, h⟩ t
    | ⟨4, _⟩ => outL (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wslab m c t := by dsimp only [dats]
theorem after0_4 (c : Dev nD) (t : Fin cfg0.N) : (dats m 0 c).after 4 t = outL (iblk m c 1 t) := by dsimp only [dats]

/-- The features and the identifiers sit in their buffers at every point (fetched once, never moved). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The slab buffer is fetched at every point: the slab's rows inside the table, anything past them. -/
theorem before0_2 (c : Dev nD) (t : Fin cfg0.N) (d) :
    (dats m 0 c).before 2 t d = win0_2.fill (grid0.coords t) d (iblk m c 2 t) := by
  unfold Dat.before; rw [if_pos (fetch0_2 t)]
  unfold Dat.fetched Dat.blockOf iblk; rw [A_eq]

/-! ## The body obligation, at a generic point -/

/-- What the body is called with at point `t`: the invariant, what the core owes, the three inputs' buffers at what
    they then hold, the score buffer at anything, the label buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ d, owns (c : Thread nD τ) (st0_4 t) fullShare ((dats m 0 c).before 4 t d)))

/-- And what it returns: the features' and the identifiers' buffers unchanged, the slab buffer stated on its rows
    inside the table only (the window is clipped), the score buffer at anything, the label buffer at the sanitised
    identifiers. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare
        ((cfg0.win 2).fill (cfg0.grid.coords t) d ((cfg0.win 2).cut (cfg0.grid.coords t) ((dats m 0 c).after 2 t))))
    ∗ (∃ X, owns (c : Thread nD τ) (st0_3 t) fullShare X)
    ∗ owns (c : Thread nD τ) (st0_4 t) fullShare ((dats m 0 c).after 4 t))

/-- The body at any point, by its triple on whole staging buffers: the inputs' buffers hold their blocks (the slab's
    filled out past the table's end with whatever was there); they come back unchanged, and cutting the slab buffer
    back to its rows inside the table gives the slab (cutting a filled block gives the block); the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_4]
  iintro ⟨HΦ, Ho, ⟨%d0, H0⟩, ⟨%d1, H1⟩, ⟨%d2, H2⟩, ⟨%d3, H3⟩, ⟨%d4, H4⟩⟩
  iapply (sound_kernel (F := F) c Set.univ (grid0.coords t) _ _ _ _ _ _ _ _ _ _
    (iblk m c 0 t) (iblk m c 1 t) (win0_2.fill (grid0.coords t) d2 (iblk m c 2 t)) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]
  · iexists d2
    have hcut : (cfg0.win 2).cut (cfg0.grid.coords t) (wslab m c t) = iblk m c 2 t := win0_2.cut_fill _ _ _
    rw [hcut]; iexact H2
  isplitl [H3]; · iexists _; iexact H3
  iexact H4

/-- The library's body obligation at every point, the score window forgotten. -/
theorem body_obligation (c : Dev nD) :
    BodyObligationLoose (dats (F := F) m 0 c) (defs₀ (F := F)) Variants.none () Set.univ fgt := fun t => by
  rw [bigSep_W0, bigSep_W0]
  exact sound_body m c t

/-! ## The lines after the region -/

/-- What the line after the region writes: the labels reshaped to a vector. It reads the label block, which the run
    names, but the set is what the run's post leaves unstated. -/
def tailWrites : Finset (Ref sig .tc) := {main_v0_1}

theorem sfx_writes : ∀ ops ∈ ([hostOps1] : List (List (HloOp τ sig (Elt F)))), ∀ op ∈ ops,
    ∀ b : Ref sig .tc, Proc.devRef .tc b ∈ op.writes → b ∈ tailWrites := by
  intro ops hops op hop
  simp only [List.mem_cons, List.mem_nil_iff, or_false] at hops
  rcases hops with rfl
  simp only [hostOps1, List.mem_cons, List.mem_nil_iff, or_false] at hop
  rcases hop with rfl
  intro b hb
  simp only [StableHlo.reshape_writes, Finset.mem_singleton] at hb
  cases Proc.devRef_injective _ hb
  decide

/-! ## The run -/

set_option backward.isDefEq.respectTransparency.types false in
/-- Every weakly fair execution of @main terminates, and every final state has each input array of the pipeline at its
    entry contents and every bypassing buffer the later line does not write at its entry contents; nothing is stated of
    the score array. -/
theorem run_main : θ_run defs (onTc (τ := τ) (main (F := F))) (s₀ m ρ)
    (Pipeline.RDat.FramePostR (cfgs 0) (fun c => (dats m 0 c).toRForget fgt) tailWrites (V m)) :=
  Pipeline.RDat.θ_run_frame_around_T cfgs (0 : Fin 1) launch0 defs₀ Variants.none (fun c => (dats m 0 c).toRForget fgt) tailWrites m ρ main
    (hbody := fun c => (body_obligation m c).toRForget) (hshare := fun c => ((dats m 0 c).toRForget fgt).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

end Data

/-! ## The frame -/

/-- The three argument arrays end as they began: the features and the table are inputs of the pipeline, which end at
    their entry contents, and those are the launch contents (no line before the region writes them); the identifiers
    bypass the pipeline and no line after the region writes them. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r (h : Pipeline.RDat.FramePostR (cfgs 0) (fun c => (dats m 0 c).toRForget fgt) tailWrites (V m) r) c =>
    ⟨(Pipeline.RDat.FramePostR.arr_in h c 0 rfl).trans ((A_eq m c 0).trans (V_main_arg0 m c)),
      ((h c).2 main_arg1 (Finset.mem_sdiff.mpr ⟨Pipeline.mem_restRefs_of main_arg1 (by decide) (by decide), by decide⟩)).trans
        (V_main_arg1 m c),
      (Pipeline.RDat.FramePostR.arr_in h c 2 rfl).trans ((A_eq m c 2).trans (V_main_arg2 m c))⟩) (run_main m ρ)

end Cert.Kernel.Body

end
-- ==== Proof.KITriple.lean ====
import proofs.«178611_g46832323396030_cont_8to1c4_234_2_alg».proof.Proof.Gen.KernelIdeal.Frame
import proofs.«178611_g46832323396030_cont_8to1c4_234_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and store is of a whole staging buffer -/

abbrev rF : Rect S1024x64 := Rect.unit (s := S1024x64) ![0, 0] S1024x64.size inb_S1024x64_S1024x64_0_0
abbrev rW : Rect S2048x64 := Rect.unit (s := S2048x64) ![0, 0] S2048x64.size inb_S2048x64_S2048x64_0_0
abbrev rS : Rect S1024x2048 := Rect.unit (s := S1024x2048) ![0, 0] S1024x2048.size inb_S1024x2048_S1024x2048_0_0
abbrev rL : Rect S8x128 := Rect.unit (s := S8x128) ![0, 0] S8x128.size inb_S8x128_S8x128_0_0

/-- The score slab the body leaves: the product of the feature block with the table slab, stored whole. -/
def outS (x0 : Vec F S1024x64 .f32) (x2 : Vec F S2048x64 .f32) : Vec F S1024x2048 .f32 :=
  View.canon [⟨rS, k0_pay1 (View.ld x0 rF) (View.ld x2 rW)⟩]

/-- The label block the body leaves: the sanitised identifiers, stored whole. -/
def outL (x1 : Vec F S8x128 .i32) : Vec F S8x128 .i32 :=
  View.canon [⟨rL, k0_pay2 (View.ld x1 rL)⟩]

theorem coverS (p0 : Vec F S1024x2048 .f32) (y : S1024x2048.Idx) :
    ∃ pc ∈ ([⟨rS, p0⟩] : List (View.Piece (Elt F) S1024x2048 .f32)), y ∈ pc.1.set :=
  View.cover_of_tiled [⟨rS, p0⟩] S1024x2048.size (by rfl) y

theorem coverL (p0 : Vec F S8x128 .i32) (y : S8x128.Idx) :
    ∃ pc ∈ ([⟨rL, p0⟩] : List (View.Piece (Elt F) S8x128 .i32)), y ∈ pc.1.set :=
  View.cover_of_tiled [⟨rL, p0⟩] S8x128.size (by rfl) y

set_option maxHeartbeats 1000000 in
/-- The body on whole staging buffers: the three inputs' at contents `x0`, `x1`, `x2` and the two outputs' at anything
    run to the continuation with the inputs' unchanged, the score buffer at the product and the label buffer at the
    sanitised identifiers. -/
theorem sound_kernel (c : Dev nD) (E : Set ℕ) (i : grid0.Coords)
    (arg1 : Memref sig .tc .vmem S1024x64 .f32) (harg1 : arg1.IsWhole) (arg2 : Memref sig .tc .vmem S8x128 .i32) (harg2 : arg2.IsWhole)
    (arg3 : Memref sig .tc .vmem S2048x64 .f32) (harg3 : arg3.IsWhole) (arg4 : Memref sig .tc .vmem S1024x2048 .f32) (harg4 : arg4.IsWhole)
    (arg5 : Memref sig .tc .vmem S8x128 .i32) (harg5 : arg5.IsWhole)
    (x0 : Vec F S1024x64 .f32) (x1 : Vec F S8x128 .i32) (x2 : Vec F S2048x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outS x0 x2) ∗ owns (c : Thread nD τ) arg5 fullShare (outL x1)) -∗ K ⟨⟩))
      ⊢ wp frame (wpE (defs₀ (F := F)) Variants.none c none) E (cc0__matmul_kernel i arg1 harg1 arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverS _)
  · iexists _; isplitr
    swap; · iexact H4
    ipureintro
    exact View.read_writes_eq_canon _ _ _ (coverL _)

end Cert.KernelIdeal.Body

end
-- ==== Proof.KIMatmul.lean ====
import proofs.«178611_g46832323396030_cont_8to1c4_234_2_alg».proof.Proof.KITriple
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.TcCoe

variable {F : FTy → Type} [FloatOps F]

/-! ## The stored values are the payloads: each store covers its whole buffer, each load reads a whole buffer -/

theorem outS_eq (x0 : Vec F S1024x64 .f32) (x2 : Vec F S2048x64 .f32) : outS x0 x2 = k0_pay1 x0 x2 := by
  have hz : (![0, 0] : Fin 2 → Nat) = fun _ => 0 := funext fun a => by fin_cases a <;> rfl
  unfold outS
  rw [View.canon_unit_zero hz]
  simp only [View.ld_unit_zero (S := S1024x64) hz, View.ld_unit_zero (S := S2048x64) hz]

theorem outL_eq (x1 : Vec F S8x128 .i32) : outL x1 = k0_pay2 x1 := by
  have hz : (![0, 0] : Fin 2 → Nat) = fun _ => 0 := funext fun a => by fin_cases a <;> rfl
  unfold outL
  rw [View.canon_unit_zero hz]
  simp only [View.ld_unit_zero (S := S8x128) hz]

/-! ## The product at an entry, over the extended reals -/

theorem lhs_ax0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_ax1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_ax0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_ax1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Row `i 0` of the feature block at feature `k`. -/
abbrev featAt (i : S1024x2048.Idx) (k : Fin 64) : S1024x64.Idx := fun a => match a with
  | ⟨0, _⟩ => ⟨(i 0).val, (i 0).isLt⟩
  | ⟨1, _⟩ => ⟨k.val, k.isLt⟩
/-- Row `i 1` of the table slab at feature `k`. -/
abbrev rowAt (i : S1024x2048.Idx) (k : Fin 64) : S2048x64.Idx := fun a => match a with
  | ⟨0, _⟩ => ⟨(i 1).val, (i 1).isLt⟩
  | ⟨1, _⟩ => ⟨k.val, k.isLt⟩

/-- Entry `(b, r)` of the slab product is the inner product of feature row `b` with table row `r` of the slab. -/
theorem pay1_apply (x0 : Vec Ideal S1024x64 .f32) (x2 : Vec Ideal S2048x64 .f32) (i : S1024x2048.Idx) :
    k0_pay1 (F := Ideal) x0 x2 i = ∑ k : Fin 64, x0 (featAt i k) * x2 (rowAt i k) := by
  unfold k0_pay1
  simp only [matmul]
  rw [Ideal.matmul_constant_zero_apply, ← Equiv.sum_comp (ValueIdx.contrEquiv1 dot_S1024x64_S2048x64_S1024x2048_1_1_0_0_n_n 64 rfl rfl).symm]
  refine Finset.sum_congr rfl fun k _ => ?_
  have hk := ValueIdx.contrEquiv1_symm_val dot_S1024x64_S2048x64_S1024x2048_1_1_0_0_n_n 64 rfl rfl k
  have el : dot_S1024x64_S2048x64_S1024x2048_1_1_0_0_n_n.lhsIdx i ((ValueIdx.contrEquiv1 dot_S1024x64_S2048x64_S1024x2048_1_1_0_0_n_n 64 rfl rfl).symm k) = featAt i k := funext fun a => Fin.ext (by
    match a with
    | ⟨0, _⟩ => exact lhs_ax0 _ _
    | ⟨1, _⟩ => exact (lhs_ax1 _ _).trans hk)
  have er : dot_S1024x64_S2048x64_S1024x2048_1_1_0_0_n_n.rhsIdx i ((ValueIdx.contrEquiv1 dot_S1024x64_S2048x64_S1024x2048_1_1_0_0_n_n 64 rfl rfl).symm k) = rowAt i k := funext fun a => Fin.ext (by
    match a with
    | ⟨0, _⟩ => exact rhs_ax0 _ _
    | ⟨1, _⟩ => exact (rhs_ax1 _ _).trans hk)
  rw [el, er]

end Cert.KernelIdeal.Body

end
-- ==== Proof.KIData.lean ====
import proofs.«178611_g46832323396030_cont_8to1c4_234_2_alg».proof.Proof.Gen.KernelIdeal.Frame
import proofs.«178611_g46832323396030_cont_8to1c4_234_2_alg».proof.Proof.Gen.KernelIdeal.Skeleton
import proofs.«178611_g46832323396030_cont_8to1c4_234_2_alg».proof.Proof.KIMatmul
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The table slab the body works on at point `t`: the slab's rows inside the table, and zero on the staging rows
    past the table's end (the last slab has 1696 rows of the table and 352 rows of nothing). -/
def wslab (c : Dev nD) (t : Fin cfg0.N) : S2048x64.Idx → Elt F .f32 :=
  win0_2.fill (grid0.coords t) (fun _ => Scalar.ofBits .f32 0#32) (iblk m c 2 t)

/-- The arrays as the region finds them; after the body at point `t` the feature buffer holds the features, the
    identifier buffer the identifiers, the slab buffer the slab, the score buffer the product of features and slab,
    the label buffer the sanitised identifiers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wslab m c t
    | ⟨3, _⟩ => outS (iblk m c 0 t) (wslab m c t)
    | ⟨4, _⟩ => outL (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wslab m c t := by dsimp only [dats]
theorem after0_3 (c : Dev nD) (t : Fin cfg0.N) : (dats m 0 c).after 3 t = outS (iblk m c 0 t) (wslab m c t) := by dsimp only [dats]
theorem after0_4 (c : Dev nD) (t : Fin cfg0.N) : (dats m 0 c).after 4 t = outL (iblk m c 1 t) := by dsimp only [dats]

/-- The features and the identifiers sit in their buffers at every point (fetched once, never moved). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The slab buffer is fetched at every point: the slab's rows inside the table, anything past them. -/
theorem before0_2 (c : Dev nD) (t : Fin cfg0.N) (d) :
    (dats m 0 c).before 2 t d = win0_2.fill (grid0.coords t) d (iblk m c 2 t) := by
  unfold Dat.before; rw [if_pos (fetch0_2 t)]
  unfold Dat.fetched Dat.blockOf iblk; rw [A_eq]

end Cert.KernelIdeal.Body

end
-- ==== Proof.KIRun.lean ====
import proofs.«178611_g46832323396030_cont_8to1c4_234_2_alg».proof.Proof.Gen.KernelIdeal.Frame
import proofs.«178611_g46832323396030_cont_8to1c4_234_2_alg».proof.Proof.Gen.KernelIdeal.Skeleton
import proofs.«178611_g46832323396030_cont_8to1c4_234_2_alg».proof.Proof.KIData
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt Ideal) ℕ (UR sig nD τ) ℕ

/-! ## The slab product does not see the staging rows past the table's end -/

/-- The cut sizes of the slab window and of the score window agree, and the slab window keeps all 64 features. -/
theorem cut_sizes : ∀ t : Fin cfg0.N, win0_3.xsize (grid0.coords t) 1 = win0_2.xsize (grid0.coords t) 0
      ∧ win0_2.xsize (grid0.coords t) 1 = 64 :=
  (by decide +kernel : ∀ t : Fin grid0.N, win0_3.xsize (grid0.coords t) 1 = win0_2.xsize (grid0.coords t) 0
      ∧ win0_2.xsize (grid0.coords t) 1 = 64)

/-- At an index the slab's transfer moves, a filled slab does not depend on the filler. -/
theorem fill_congr_moved {α : Type} (i : grid0.Coords) (d d' : win0_2.block.Idx → α) (g : (win0_2.xblock i).Idx → α)
    (j : win0_2.block.Idx) (h : win0_2.moved i j = true) : win0_2.fill i d g j = win0_2.fill i d' g j := by
  unfold Window.fill; rw [dif_pos h, dif_pos h]

/-- The columns of the product that are written back are inner products with table rows INSIDE the table: they
    are the same whatever the slab buffer holds past the table's end. -/
theorem cut_outS (t : Fin cfg0.N) (x0 : Vec Ideal S1024x64 .f32) (d d' : S2048x64.Idx → Elt Ideal .f32)
    (g : (win0_2.xblock (grid0.coords t)).Idx → Elt Ideal .f32) :
    win0_3.cut (grid0.coords t) (outS x0 (win0_2.fill (grid0.coords t) d g))
      = win0_3.cut (grid0.coords t) (outS x0 (win0_2.fill (grid0.coords t) d' g)) := by
  funext j
  show outS x0 _ (win0_3.xinj (grid0.coords t) j) = outS x0 _ (win0_3.xinj (grid0.coords t) j)
  rw [outS_eq, outS_eq, pay1_apply, pay1_apply]
  refine Finset.sum_congr rfl fun k _ => ?_
  have hmv : win0_2.moved (grid0.coords t) (rowAt (win0_3.xinj (grid0.coords t) j) k) = true := by
    rw [Window.moved_iff]; intro a
    match a with
    | ⟨0, _⟩ =>
      have h1 : (j 1).val < win0_3.xsize (grid0.coords t) 1 := (j 1).isLt
      rw [(cut_sizes t).1] at h1
      exact h1
    | ⟨1, _⟩ =>
      show k.val < win0_2.xsize (grid0.coords t) 1
      rw [(cut_sizes t).2]; exact k.isLt
  rw [fill_congr_moved (grid0.coords t) d d' g _ hmv]

/-! ## The body obligation -/

variable (m : (ℓ : Loc nD τ sig) → Buf (Elt Ideal) ℓ) (ρ : Dev nD → PrngReg)

/-- What the body is called with at point `t`: each window's current staging buffer at what the pipeline left there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns: the two clipped windows (the slab and the score) stated on the part their transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t))))
    ∗ (∃ d, owns (c : Thread nD τ) (st0_3 t) fullShare
        (win0_3.fill (grid0.coords t) d (win0_3.cut (grid0.coords t) ((dats m 0 c).after 3 t))))
    ∗ owns (c : Thread nD τ) (st0_4 t) fullShare ((dats m 0 c).after 4 t))

/-- At every point the body, handed the features, the identifiers, the fetched slab (anything past the table's end)
    and any contents of the two output buffers, leaves the inputs in place, the product in the score buffer — on the
    columns written back it is the product with the zero-filled slab — and the sanitised identifiers in the label
    buffer. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2]
  iapply (sound_kernel (F := Ideal) c Set.univ (grid0.coords t) _ _ _ _ _ _ _ _ _ _
    (iblk m c 0 t) (iblk m c 1 t) (win0_2.fill (grid0.coords t) d2 (iblk m c 2 t)) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]
  · iexists d2
    rw [show win0_2.cut (grid0.coords t) (wslab m c t) = iblk m c 2 t from win0_2.cut_fill _ _ _]
    iexact H2
  isplitl [H3]
  · iexists outS (iblk m c 0 t) (win0_2.fill (grid0.coords t) d2 (iblk m c 2 t))
    have hcut : win0_3.cut (grid0.coords t) (outS (iblk m c 0 t) (win0_2.fill (grid0.coords t) d2 (iblk m c 2 t)))
        = win0_3.cut (grid0.coords t) (outS (iblk m c 0 t) (wslab m c t)) :=
      cut_outS t (iblk m c 0 t) d2 _ (iblk m c 2 t)
    rw [win0_3.fill_congr_cut (grid0.coords t) hcut]
    iexact H3
  · iexact H4

theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- From any memory with zero counters every weakly fair execution of @main terminates; every array of the pipeline
    ends at what the write-backs leave (`Dat.arrAt … N`), every other unscoped buffer as the reshape after the region
    leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The three argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The same run read at the two results and the three arguments: the score array is window 3's array after the
    write-backs, the labels what the reshape after the region writes, the arguments as launched. -/
theorem run_results : θ_run defs (onTc (τ := τ) (main (F := Ideal))) ⟨m, fun _ => 0, ρ⟩ (fun r => ∀ c : Dev nD,
      r.2.mem ((c.tc : Thread nD τ).loc main_v0_0) = (dats m 0 c).arrAt 3 cfg0.N
      ∧ r.2.mem ((c.tc : Thread nD τ).loc main_v0_1) = Pipeline.afterTail₀ cfgs (dats m) 0 (V0 m) [hostOps1] c main_v0_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 3,
      (h c).2 main_v0_1 (Pipeline.mem_restRefs_of main_v0_1 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩) (run_main m ρ)

end Cert.KernelIdeal.Body

end
-- ==== Proof.KIScore.lean ====
import proofs.«178611_g46832323396030_cont_8to1c4_234_2_alg».proof.Proof.KIData
import proofs.«178611_g46832323396030_cont_8to1c4_234_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ)

/-! ## The score array after the run

Output window 3 is the score array in column blocks of 2048: point `t` holds columns `2048 t …`, and the last block
is cut at column 100000. Each point writes back the product of the feature block with its table slab; on the columns
inside the array the slab's rows are the table's rows, so every block is a block of the one function
`score feats table`, and the blocks cover the array. -/

/-- The printed index maps and cut sizes, decided once over the 49 points: the feature block never moves; the slab's row
    block and the score's column block are both the point; the score's column cut is the slab's row cut, and block
    `t`'s columns end at `min (2048 (t + 1)) 100000`. -/
theorem score_idx_facts : ∀ t : Fin cfg0.N,
    win0_3.index t (0 : Fin 2) = 0 ∧ win0_3.index t (1 : Fin 2) = t.val
    ∧ win0_2.index t (0 : Fin 2) = t.val ∧ win0_2.index t (1 : Fin 2) = 0
    ∧ win0_0.index t (0 : Fin 2) = 0 ∧ win0_0.index t (1 : Fin 2) = 0
    ∧ win0_3.xsize (grid0.coords t) (0 : Fin 2) = 1024
    ∧ win0_3.xsize (grid0.coords t) (1 : Fin 2) = win0_2.xsize (grid0.coords t) (0 : Fin 2)
    ∧ win0_2.xsize (grid0.coords t) (1 : Fin 2) = 64
    ∧ t.val * 2048 + win0_3.xsize (grid0.coords t) (1 : Fin 2) = min (2048 * (t.val + 1)) 100000 :=
  (by decide +kernel : ∀ t : Fin grid0.N, _)

/-- The feature block at any point is the feature array itself: entry `x` of the block is entry `x` of the array. -/
theorem score_feat_apply (c : Dev nD) (t : Fin cfg0.N) (x : S1024x64.Idx) (q : Cert.Spec.Sfeat.Idx)
    (h0 : (q 0).val = (x 0).val) (h1 : (q 1).val = (x 1).val) :
    (iblk m c 0 t : Vec Ideal S1024x64 .f32) x
      = (m ((c.tc : Thread nD τ).loc main_arg0) : Cert.Spec.Sfeat.Idx → Ideal .f32) q := by
  obtain ⟨-, -, -, -, e0, e1, -⟩ := score_idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * (x 0).val = (q 0).val; rw [e0, h0]; omega
  | ⟨1, _⟩ => show win0_0.index t (1 : Fin 2) * 64 + 1 * (x 1).val = (q 1).val; rw [e1, h1]; omega

/-- Row `r` of the slab at point `t`, when it lies inside the table, is row `2048 t + r` of the table. -/
theorem score_slab_apply (c : Dev nD) (t : Fin cfg0.N) (r : S2048x64.Idx) (q : Cert.Spec.Stab.Idx)
    (hr : (r 0).val < win0_3.xsize (grid0.coords t) (1 : Fin 2))
    (h0 : (q 0).val = t.val * 2048 + (r 0).val) (h1 : (q 1).val = (r 1).val) :
    wslab m c t r = (m ((c.tc : Thread nD τ).loc main_arg2) : Cert.Spec.Stab.Idx → Ideal .f32) q := by
  obtain ⟨-, -, e0, e1, -, -, -, ex0, ex1, -⟩ := score_idx_facts t
  have hmv : ∀ a, (r a).val < win0_2.xsize (grid0.coords t) a := fun a => by
    match a with
    | ⟨0, _⟩ => show (r 0).val < win0_2.xsize (grid0.coords t) (0 : Fin 2); omega
    | ⟨1, _⟩ => show (r 1).val < win0_2.xsize (grid0.coords t) (1 : Fin 2); have h : (r 1).val < 64 := (r 1).isLt; omega
  unfold wslab Window.fill
  rw [dif_pos ((win0_2.moved_iff _ _).mpr hmv)]
  unfold iblk
  rw [View.read_apply]
  show V m c main_arg2 _ = _
  rw [V_main_arg2]
  refine congrArg _ (funext fun a => Fin.ext ?_)
  match a with
  | ⟨0, _⟩ => show win0_2.index t (0 : Fin 2) * 2048 + 1 * (r 0).val = (q 0).val; rw [e0, h0]; omega
  | ⟨1, _⟩ => show win0_2.index t (1 : Fin 2) * 64 + 1 * (r 1).val = (q 1).val; rw [e1, h1]; omega

/-- An entry of a slab product is the score at array index `n` as soon as the block's feature row and slab row at
    that entry are the arrays' rows at `n`. -/
theorem score_entry (x0 : Vec Ideal S1024x64 .f32) (x2 : Vec Ideal S2048x64 .f32)
    (A0 : FVec Ideal Cert.Spec.Sfeat .f32) (A2 : FVec Ideal Cert.Spec.Stab .f32) (i : S1024x2048.Idx) (n : Cert.Spec.Sscore.Idx)
    (hf : ∀ k, x0 (featAt i k) = A0 (Cert.Spec.featRow n k)) (hs : ∀ k, x2 (rowAt i k) = A2 (Cert.Spec.tabRow n k)) :
    k0_pay1 (F := Ideal) x0 x2 i = Cert.Spec.score A0 A2 n := by
  rw [pay1_apply]
  unfold Cert.Spec.score
  exact Finset.sum_congr rfl fun k _ => by rw [hf k, hs k]

/-- The score as contents of window 3's array. -/
abbrev scoreOf (c : Dev nD) : Buf (Elt Ideal) ((cfg0.win 3).arr.view.loc (c.tc : Thread nD τ)) :=
  Cert.Spec.score (m ((c.tc : Thread nD τ).loc main_arg0)) (m ((c.tc : Thread nD τ).loc main_arg2))

/-- WHAT POINT `t` WRITES BACK is block `t` of the score. -/
theorem score_block (c : Dev nD) (t : Fin cfg0.N) :
    (dats m 0 c).flushed 3 t = ((cfg0.win 3).blk t).view.read (Elt Ideal) (scoreOf m c) := by
  show (cfg0.win 3).cut (grid0.coords t) ((dats m 0 c).after 3 t) = _
  rw [after0_3, outS_eq]
  obtain ⟨e0, e1, -, -, -, -, ex0, -⟩ := score_idx_facts t
  funext j
  rw [View.read_apply]
  refine score_entry _ _ _ _ _ (((cfg0.win 3).blk t).view.emb j) (fun k => ?_) (fun k => ?_)
  · refine score_feat_apply m c t _ _ ?_ rfl
    show win0_3.index t (0 : Fin 2) * 1024 + 1 * (j 0).val = (j 0).val
    rw [e0]; omega
  · refine score_slab_apply m c t _ _ (j 1).isLt ?_ rfl
    show win0_3.index t (1 : Fin 2) * 2048 + 1 * (j 1).val = t.val * 2048 + (j 1).val
    rw [e1]; omega

/-- An index of the score array is in point `t`'s block iff each coordinate is in the block's (cut) range. -/
theorem score_mem_blk (t : Fin cfg0.N) (i : S1024x100000.Idx) :
    i ∈ ((cfg0.win 3).blk t).view.set ↔ ∀ a : Fin 2, win0_3.index t a * S1024x2048.size a ≤ (i a).val
      ∧ (i a).val < win0_3.index t a * S1024x2048.size a + win0_3.xsize (grid0.coords t) a := by
  show i ∈ ((View.whole main_v0_0).slice (win0_3.rect t)).set ↔ _
  rw [View.set_slice_whole, Rect.mem_set_unit]
  exact Iff.rfl

/-- Column `n` lies in block `n / 2048`: the blocks cover the array. -/
theorem score_cover (i : S1024x100000.Idx) :
    ∃ t : Fin cfg0.N, (cfg0.win 3).flush t = true ∧ i ∈ ((cfg0.win 3).blk t).view.set := by
  have hi0 : (i 0).val < 1024 := (i 0).isLt
  have hi1 : (i 1).val < 100000 := (i 1).isLt
  have hN : cfg0.N = 49 := N_0
  obtain ⟨t, ht⟩ : ∃ t : Fin cfg0.N, t.val = (i 1).val / 2048 := ⟨⟨(i 1).val / 2048, by rw [hN]; omega⟩, rfl⟩
  refine ⟨t, flush0_3 t, ?_⟩
  rw [score_mem_blk]
  obtain ⟨e0, e1, -, -, -, -, ex0, -, -, ex1⟩ := score_idx_facts t
  intro a
  match a with
  | ⟨0, _⟩ =>
    show win0_3.index t (0 : Fin 2) * 1024 ≤ (i 0).val ∧ (i 0).val < win0_3.index t (0 : Fin 2) * 1024 + win0_3.xsize (grid0.coords t) (0 : Fin 2)
    rw [e0, ex0]; omega
  | ⟨1, _⟩ =>
    show win0_3.index t (1 : Fin 2) * 2048 ≤ (i 1).val ∧ (i 1).val < win0_3.index t (1 : Fin 2) * 2048 + win0_3.xsize (grid0.coords t) (1 : Fin 2)
    rw [e1]; omega

/-- THE SCORE ARRAY after the run: every feature row against every table row. -/
theorem score_final (m : (ℓ : Loc nD τ sig) → Buf (Elt Ideal) ℓ) (c : Dev nD) :
    (dats m 0 c).arrAt 3 cfg0.N = Cert.Spec.score (m ((c.tc : Thread nD τ).loc main_arg0)) (m ((c.tc : Thread nD τ).loc main_arg2)) :=
  (dats m 0 c).arrAt_eq_of_cover 3 (scoreOf m c) (fun t _ => score_block m c t) score_cover

end Cert.KernelIdeal.Body

end
-- ==== Proof.KILabels.lean ====
import proofs.«178611_g46832323396030_cont_8to1c4_234_2_alg».proof.Proof.KIData
import proofs.«178611_g46832323396030_cont_8to1c4_234_2_alg».proof.Proof.Spec
import Idealize.ShloMosaic.Lib.StableHlo.Run
import Idealize.ShloMosaic.Lib.Pipeline.Value
import Idealize.ShloMosaic.Lib.ValueIdx
import Idealize.ShloMosaic.Lib.ValueLayout

/-!
The sanitised identifiers after the run.

The identifiers travel `[1024] → [8,128]` (a row-major re-laying before the grid), through the body, which replaces
every word that is negative or at least `100000` (signed) by `-1` entry by entry, and `[8,128] → [1024]` (the inverse
re-laying after the grid). The `[8,128]` array is staged whole at every grid point and written back whole after the
last one, so the grid contributes nothing but the body's pointwise map; an entrywise map between a re-laying and its
inverse is the same entrywise map on the flat array. That is `Cert.Spec.labels`.
-/

set_option maxRecDepth 16384

noncomputable section

namespace Cert.KernelIdeal.Body

open Cert.KernelIdeal Cert.KernelIdeal.Gen
open Idealize.ShloMosaic Idealize.ShloMosaic.TcCoe
open Idealize.SL.Sem
open Idealize.ShloMosaic.Pipeline (Dat Cfg Window)

section Generic

variable {F : FTy → Type} [FloatOps F]
variable (m : (ℓ : Loc nD τ sig) → Buf (Elt F) ℓ)

/-! ## The body's map on the identifiers is entrywise -/

/-- The body's label block at an entry: the identifier there when it lies in `[0, 100000)` as a signed word, else `-1`
    (the shape cast inside the body is to the same shape, so it moves nothing; the comparisons, the disjunction and the
    selection act entry by entry, and the three constants are the same at every entry). -/
theorem pay2_apply (x : Vec F S8x128 .i32) (i : S8x128.Idx) : k0_pay2 (F := F) x i = Cert.Spec.label (x i) := by
  unfold k0_pay2
  simp only [shapeCast_self]
  rfl

theorem pay2_eq_label (x : Vec F S8x128 .i32) : k0_pay2 (F := F) x = fun i => Cert.Spec.label (x i) :=
  funext (pay2_apply x)

/-- An entrywise map between the re-laying `[1024] → [8,128]` and its inverse is the entrywise map on `[1024]`: a
    re-laying only re-indexes, so it commutes with an entrywise map, and there and back is the identity. -/
theorem labels_pure (p : IVec S1024 32) :
    shapeCast S1024 (k0_pay2 (F := F) (shapeCast S8x128 p shapeCasts_S1024_S8x128)) shapeCasts_S8x128_S1024
      = Cert.Spec.labels p := by
  rw [pay2_eq_label]
  funext j
  show Cert.Spec.label (shapeCast S1024 (shapeCast S8x128 p shapeCasts_S1024_S8x128) shapeCasts_S8x128_S1024 j) = _
  rw [shapeCast_shapeCast]
  rfl

/-! ## The `[8,128]` identifier array as the grid finds it -/

/-- Before the grid the identifiers are re-laid row-major from `[1024]` to `[8,128]`. -/
theorem V_ids (c : Dev nD) :
    (V m c main_call0_v0 : Vec F S8x128 .i32)
      = shapeCast S8x128 (m ((c.tc : Thread nD τ).loc main_arg1) : Vec F S1024 .i32) shapeCasts_S1024_S8x128 := by
  show StableHlo.after hostOps0 (fun b => m (c, b)) (Proc.devRef .tc main_call0_v0) = _
  after_results
  rfl

/-! ## The label window: one block, the whole array, at block index `(0, 0)` at every point -/

/-- The identifier window's block starts at element `(0, 0)` at every point: its block index is constantly `(0, 0)`. -/
theorem off1_zero (t : Fin cfg0.N) : (fun a => win0_1.index t a * S8x128.size a) = fun _ => 0 :=
  funext fun a => by fin_cases a <;> rfl
/-- So does the label window's. -/
theorem off4_zero (t : Fin cfg0.N) : (fun a => win0_4.index t a * S8x128.size a) = fun _ => 0 :=
  funext fun a => by fin_cases a <;> rfl

/-- The identifier block at any point is the whole `[8,128]` identifier array: the block has the array's extents and
    starts at its origin. -/
theorem iblk1_eq (c : Dev nD) (t : Fin cfg0.N) : (iblk m c 1 t : Vec F S8x128 .i32) = V m c main_call0_v0 := by
  unfold iblk
  exact Memref.read_access_unit_zero (Elt F) main_call0_v0 (off1_zero t)
    (fun a => by rw [congrFun (off1_zero t) a]; simp) (V m c main_call0_v0)

/-- Reading the label window's block of an `[8,128]` array reads the array, for the same reason. -/
theorem read_blk4 (t : Fin cfg0.N) (G : Vec F S8x128 .i32) : ((cfg0.win 4).blk t).view.read (Elt F) G = G :=
  Memref.read_access_unit_zero (Elt F) main_call0_v1_1 (off4_zero t)
    (fun a => by rw [congrFun (off4_zero t) a]; simp) G

/-- What any point would write back is the body's map of the whole identifier array (the block is never cut: it
    lies inside the array). -/
theorem flushed4_eq (c : Dev nD) (t : Fin cfg0.N) :
    (dats m 0 c).flushed 4 t = ((cfg0.win 4).blk t).view.read (Elt F) (k0_pay2 (F := F) (V m c main_call0_v0)) := by
  rw [read_blk4]
  show (cfg0.win 4).cut (grid0.coords t) ((dats m 0 c).after 4 t) = _
  rw [after0_4, outL_eq, iblk1_eq]
  rfl

/-- Every entry of the `[8,128]` label array lies in the label window's block, at every point. -/
theorem mem_blk4 (t : Fin cfg0.N) (i : S8x128.Idx) : i ∈ ((cfg0.win 4).blk t).view.set := by
  show i ∈ ((View.whole main_call0_v1_1).slice (win0_4.rect t)).set
  rw [View.set_slice_whole, Rect.mem_set_unit]
  intro a
  have h0 : (i 0 : Nat) < 8 := (i 0).isLt
  have h1 : (i 1 : Nat) < 128 := (i 1).isLt
  match a with
  | ⟨0, _⟩ => show 0 * 8 ≤ (i 0 : Nat) ∧ (i 0 : Nat) < 0 * 8 + 8; omega
  | ⟨1, _⟩ => show 0 * 128 ≤ (i 1 : Nat) ∧ (i 1 : Nat) < 0 * 128 + 128; omega

/-- The `[8,128]` label array after the grid: the body's map of the whole identifier array, written by the one
    write-back, after the last point (point 48 of 49), whose block covers the array. -/
theorem final4 (c : Dev nD) : (dats m 0 c).arrAt 4 cfg0.N = k0_pay2 (F := F) (V m c main_call0_v0) :=
  (dats m 0 c).arrAt_eq_of_cover 4 (k0_pay2 (F := F) (V m c main_call0_v0)) (fun t _ => flushed4_eq m c t) fun i =>
    ⟨⟨48, by rw [show cfg0.N = 49 from N_0]; decide⟩, (flush0_4 _).mpr rfl, mem_blk4 _ i⟩

/-! ## After the grid -/

/-- After the grid the `[8,128]` label array is re-laid row-major to `[1024]`. -/
theorem tail_eq (c : Dev nD) :
    (Pipeline.afterTail₀ cfgs (dats m) 0 (V0 m) [hostOps1] c main_v0_1 : Vec F S1024 .i32)
      = shapeCast S1024 ((dats m 0 c).arrAt 4 cfg0.N : Vec F S8x128 .i32) shapeCasts_S8x128_S1024 := by
  unfold Pipeline.afterTail₀
  show StableHlo.after hostOps1 _ (Proc.devRef .tc main_v0_1) = _
  after_results
  have e := Pipeline.withArrays_arr spec0 launch0.win.arr_inj c (V0 m c) (fun w => (dats m 0 c).arrAt w cfg0.N) 4
  exact congrArg (fun v : Vec F S8x128 .i32 => shapeCast S1024 v shapeCasts_S8x128_S1024) e

/-- The labels after the run, at any float interpretation (the identifiers are 32-bit words at each). -/
theorem labels_final_gen (c : Dev nD) :
    (Pipeline.afterTail₀ cfgs (dats m) 0 (V0 m) [hostOps1] c main_v0_1 : Vec F S1024 .i32)
      = Cert.Spec.labels (m ((c.tc : Thread nD τ).loc main_arg1)) := by
  rw [tail_eq, final4, V_ids]
  exact labels_pure _

end Generic

/-- THE LABELS after the run: the sanitised identifiers, entry by entry. -/
theorem labels_final (m : (ℓ : Loc nD τ sig) → Buf (Elt Ideal) ℓ) (c : Dev nD) :
    Pipeline.afterTail₀ cfgs (dats m) 0 (V0 m) [hostOps1] c main_v0_1 = Cert.Spec.labels (m ((c.tc : Thread nD τ).loc main_arg1)) :=
  labels_final_gen m c

end Cert.KernelIdeal.Body

end
-- ==== Proof.lean ====
/-
  The matching-scores kernel against its plain reference, over the extended reals.

  The kernel computes `score = feats · tableᵀ` (feats : f32[1024, 64], table : f32[100000, 64]) slab by slab: a grid
  of 49 points, point `t` multiplying the features with table rows `2048 t … 2048 t + 2047` and writing columns
  `2048 t …` of the score. The last slab overhangs the table (1696 rows inside, 352 past its end) and the last column
  block overhangs the score the same way: the transfers are cut at the arrays' ends, the staging rows past the
  table's end hold arbitrary values, and the columns computed from them are never written back. Beside it the
  kernel sanitises the identifiers (`-1` where `pid < 0` or `pid ≥ 100000`) on a [8, 128] re-laying of the 1024
  identifiers, laid back afterwards.

  * Both idealised programs end with the score at `Spec.score feats table` (entry `(b, n)` the inner product of
    feature row `b` with table row `n`: a sum over the 64 features, the same sum on both sides, so no law of
    arithmetic on the extended reals beyond reading both products at an entry is used and finiteness of the inputs is
    never opened) and the labels at `Spec.labels pid`.
  * The kernel side: the body's triple (Proof/KITriple.lean), the product at an entry (KIMatmul.lean), the proof
    data and the run (KIData.lean, KIRun.lean: the columns written back do not depend on the staging rows past the
    table's end), the score array from its column blocks (KIScore.lean) and the labels through the two re-layings
    (KILabels.lean). The reference side: RefSide.lean.
  * The word-level kernel's frame (KTriple.lean, KFrame.lean): there the matrix unit is opaque in its whole operand,
    so nothing is said of the score buffer; the arguments are inputs or bypass the pipeline and end as launched.
  * The idealisation rewrote nothing, so `preserves` is trivial.
-/
import proofs.«178611_g46832323396030_cont_8to1c4_234_2_alg».proof.Defs
import proofs.«178611_g46832323396030_cont_8to1c4_234_2_alg».proof.Proof.Gen.Kernel
import proofs.«178611_g46832323396030_cont_8to1c4_234_2_alg».proof.Proof.Gen.KernelIdeal
import proofs.«178611_g46832323396030_cont_8to1c4_234_2_alg».proof.Proof.Gen.ReferenceIdeal
import proofs.«178611_g46832323396030_cont_8to1c4_234_2_alg».proof.Proof.Gen.Pre_finite_inputs
import proofs.«178611_g46832323396030_cont_8to1c4_234_2_alg».proof.Proof.Gen.ReferenceIdeal.Run
import proofs.«178611_g46832323396030_cont_8to1c4_234_2_alg».proof.Proof.Gen.ReferenceIdeal.Read
import proofs.«178611_g46832323396030_cont_8to1c4_234_2_alg».proof.Proof.Spec
import proofs.«178611_g46832323396030_cont_8to1c4_234_2_alg».proof.Proof.RefSide
import proofs.«178611_g46832323396030_cont_8to1c4_234_2_alg».proof.Proof.KFrame
import proofs.«178611_g46832323396030_cont_8to1c4_234_2_alg».proof.Proof.KIRun
import proofs.«178611_g46832323396030_cont_8to1c4_234_2_alg».proof.Proof.KIScore
import proofs.«178611_g46832323396030_cont_8to1c4_234_2_alg».proof.Proof.KILabels

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Body.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The reference has no kernel: its frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both programs end with the score at the inner products of feature rows with table rows and the labels at the
    sanitised identifiers, of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, (θ_run Cert.KernelIdeal.defs _ _).mono (fun r h c =>
      ⟨(h c).1.trans (Cert.KernelIdeal.Body.score_final m c), (h c).2.1.trans (Cert.KernelIdeal.Body.labels_final m c), (h c).2.2⟩)
    (Cert.KernelIdeal.Body.run_results m ρ), ?_⟩
  refine (θ_run Cert.ReferenceIdeal.defs _ _).mono (fun r h c => ⟨?_, ?_, (h c).2.2⟩)
    (Cert.ReferenceIdeal.Value.run (F := Ideal) m' ρ')
  · rw [(h c).1, Cert.ReferenceIdeal.Read.val_main_v7_eq, Cert.RefSide.score_eq, (hagree c).1, (hagree c).2.2]
  · rw [(h c).2.1, Cert.ReferenceIdeal.Read.val_main_v5_eq, Cert.RefSide.labels_eq, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
